-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x64 .f32) (main_arg3 : FVec F S64 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S128x128 : Shape := ⟨2, ![128, 128]⟩
abbrev S5000x128 : Shape := ⟨2, ![5000, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 90
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S128x128, .f32⟩
  | .hbm, ⟨47, _⟩ => ⟨S50000x128, .bf16⟩
  | .hbm, ⟨48, _⟩ => ⟨S128x128, .bf16⟩
  | .hbm, ⟨49, _⟩ => ⟨S50000x128, .f32⟩
  | .hbm, ⟨50, _⟩ => ⟨S50000x64, .f32⟩
  | .hbm, ⟨51, _⟩ => ⟨S50000x64, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x64, .f32⟩
  | .hbm, ⟨62, _⟩ => ⟨S850000x64, .f32⟩
  | .hbm, ⟨63, _⟩ => ⟨S850000x64, .f32⟩
  | .hbm, ⟨64, _⟩ => ⟨S_, .f32⟩
  | .hbm, ⟨65, _⟩ => ⟨S50000x64, .f32⟩
  | .hbm, ⟨66, _⟩ => ⟨S850000x1, .i32⟩
  | .hbm, ⟨67, _⟩ => ⟨S50000x64, .f32⟩
  | .hbm, ⟨68, _⟩ => ⟨S1x64, .f32⟩
  | .hbm, ⟨69, _⟩ => ⟨S50000x64, .f32⟩
  | .hbm, ⟨70, _⟩ => ⟨S50000x64, .f32⟩
  | .hbm, ⟨71, _⟩ => ⟨S850000x1, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x64, .f32⟩
  | .hbm, ⟨82, _⟩ => ⟨S850000x64, .f32⟩
  | .hbm, ⟨83, _⟩ => ⟨S_, .f32⟩
  | .hbm, ⟨84, _⟩ => ⟨S50000x64, .f32⟩
  | .hbm, ⟨85, _⟩ => ⟨S850000x1, .i32⟩
  | .hbm, ⟨86, _⟩ => ⟨S50000x64, .f32⟩
  | .hbm, ⟨87, _⟩ => ⟨S1x64, .f32⟩
  | .hbm, ⟨88, _⟩ => ⟨S50000x64, .f32⟩
  | .hbm, ⟨89, _⟩ => ⟨S50000x64, .f32⟩
  | .local _ .vmem, ⟨0, _⟩ => ⟨S5000x128, .bf16⟩
  | .local _ .vmem, ⟨1, _⟩ => ⟨S5000x128, .bf16⟩
  | .local _ .vmem, ⟨2, _⟩ => ⟨S128x128, .bf16⟩
  | .local _ .vmem, ⟨3, _⟩ => ⟨S5000x128, .f32⟩
  | .local _ .vmem, ⟨4, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_6 : Ref sig .tc := ⟨.hbm, 53, rfl⟩
abbrev main_v37 : Ref sig .tc := ⟨.hbm, 54, rfl⟩
abbrev main_v38 : Ref sig .tc := ⟨.hbm, 55, rfl⟩
abbrev main_c_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  concatenates_S128x64_S128x64_S128x128_d1 : Shape.Concatenates [S128x64, S128x64] S128x128 1
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S50000x128_S50000x64_0_0 : S50000x128.Slices ![0, 0] S50000x64
  slices_S50000x128_S50000x64_0_64 : S50000x128.Slices ![0, 64] S50000x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_v31) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 86
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x64, .f32⟩
  | .hbm, ⟨47, _⟩ => ⟨S850000x1, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S50000x64, .f32⟩
  | .hbm, ⟨67, _⟩ => ⟨S850000x1, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.MatArr.lean ====
/-
  The kernel's result array. The one pallas_call tiles the rows of a [50000,128] array into ten blocks of 5000 rows;
  at each block it multiplies the block of the (narrowed) input by the whole (narrowed) [128,128] weight matrix into a
  zero accumulator and stores the product. Over the extended reals a product into zero is the plain sum over the
  contracted axis, a row of the block is a row of the array, and the ten blocks cover the array: the array the call
  leaves is the matrix product of the two operand arrays, index by index (`final`).
-/
import proofs.«107513_j23441931501602_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-! ## One block: the product at an index -/

/-- Row `j 0`, column `k` of a block of the left operand. -/
abbrev blkRow (j : S5000x128.Idx) (k : Fin 128) : S5000x128.Idx := fun a => match a with
  | ⟨0, _⟩ => ⟨(j 0).val, (j 0).isLt⟩
  | ⟨1, _⟩ => ⟨k.val, k.isLt⟩
/-- Row `k`, column `j 1` of the right operand. -/
abbrev blkCol (j : S5000x128.Idx) (k : Fin 128) : S128x128.Idx := fun a => match a with
  | ⟨0, _⟩ => ⟨k.val, k.isLt⟩
  | ⟨1, _⟩ => ⟨(j 1).val, (j 1).isLt⟩

/-- The left operand's index keeps the output's row … -/
theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and runs along the contracted axis; -/
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's runs along the contracted axis … -/
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and keeps the output's column. -/
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores, at an index of the block: the sum over the 128 contracted positions of the left block's row
    entry times the right operand's column entry (the format changes are the identity, the accumulator is zero). -/
theorem pay_apply (x0 : FVec Ideal S5000x128 .bf16) (x1 : FVec Ideal S128x128 .bf16) (j : S5000x128.Idx) :
    k0_pay1 (F := Ideal) x0 x1 j = ∑ k : Fin 128, x0 (blkRow j k) * x1 (blkCol j k) := by
  unfold k0_pay1
  rw [shapeCast_self, shapeCast_self]
  refine (Ideal.matmul_constant_zero_apply dot_S5000x128_S128x128_S5000x128_1_0_0_1_n_n none x0 x1 j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = blkRow j k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx j ((ValueIdx.contrEquiv1 dot_S5000x128_S128x128_S5000x128_1_0_0_1_n_n 128 rfl rfl).symm k) = blkCol j k := funext fun a => Fin.ext (by
    match a with
    | ⟨0, _⟩ => exact (rhs_blk_0 _ _).trans hk
    | ⟨1, _⟩ => exact rhs_blk_1 _ _)
  rw [el, er]

/-! ## The whole array -/

/-- Row `i 0`, column `k` of the left operand array. -/
abbrev arrRow (i : S50000x128.Idx) (k : Fin 128) : S50000x128.Idx := fun a => match a with
  | ⟨0, _⟩ => ⟨(i 0).val, (i 0).isLt⟩
  | ⟨1, _⟩ => ⟨k.val, k.isLt⟩
/-- Row `k`, column `i 1` of the right operand array. -/
abbrev arrCol (i : S50000x128.Idx) (k : Fin 128) : S128x128.Idx := fun a => match a with
  | ⟨0, _⟩ => ⟨k.val, k.isLt⟩
  | ⟨1, _⟩ => ⟨(i 1).val, (i 1).isLt⟩

/-- The matrix product of a [50000,128] array with a [128,128] array over the extended reals. -/
def prodArr (x : S50000x128.Idx → EReal) (w : S128x128.Idx → EReal) : S50000x128.Idx → EReal :=
  fun i => ∑ k : Fin 128, x (arrRow i k) * w (arrCol i k)

/-- The printed index maps over the ten grid points: point `t` stages row block `t` of the left operand and of the
    result, and always the one block of the right operand. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two operand arrays as the call finds them. -/
theorem flushed_eq (c : Dev nD) (t : Fin cfg0.N) :
    (dats m 0 c).flushed 2 t = ((cfg0.win 2).blk t).view.read (Elt Ideal) (prodArr (V m c main_v31) (V m c main_v32)) := by
  show (cfg0.win 2).cut (grid0.coords t) ((dats m 0 c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (F := Ideal) (iblk m c 0 t) (iblk m c 1 t) j = prodArr (V m c main_v31) (V m c main_v32) (((cfg0.win 2).blk t).view.emb j)
  refine (pay_apply (iblk m c 0 t) (iblk m c 1 t) j).trans ?_
  unfold prodArr
  refine Finset.sum_congr rfl fun k _ => ?_
  have h0 : iblk m c 0 t (blkRow j k) = V m c main_v31 (arrRow (((cfg0.win 2).blk t).view.emb j) k) := by
    show V m c main_v31 (((cfg0.win 0).blk t).view.emb (blkRow j k)) = _
    refine congrArg (V m c main_v31) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk m c 1 t (blkCol j k) = V m c main_v32 (arrCol (((cfg0.win 2).blk t).view.emb j) k) := by
    show V m c main_v32 (((cfg0.win 1).blk t).view.emb (blkCol j k)) = _
    refine congrArg (V m c main_v32) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- The array after the call: the product of the two operand arrays (row `r` is written by point `r / 5000`). -/
theorem final (c : Dev nD) : (dats m 0 c).arrAt 2 cfg0.N = prodArr (V m c main_v31) (V m c main_v32) :=
  (dats m 0 c).arrAt_eq_of_cover 2 _ (fun t _ => flushed_eq m c t) fun i => by
    have hi0 : (i 0).val < 50000 := (i 0).isLt
    have hi1 : (i 1).val < 128 := (i 1).isLt
    have hN : cfg0.N = 10 := N_0
    have hlt : (i 0).val / 5000 < cfg0.N := by rw [hN]; omega
    obtain ⟨e0, e1, e2, e3, e4, e5⟩ := idx_facts ⟨(i 0).val / 5000, hlt⟩
    have e4' : win0_2.index ⟨(i 0).val / 5000, hlt⟩ (0 : Fin 2) = (i 0).val / 5000 := e4
    refine ⟨⟨(i 0).val / 5000, hlt⟩, flush0_2 _, ?_⟩
    rw [mem_blk]
    intro a
    match a with
    | ⟨0, _⟩ =>
      show win0_2.index ⟨(i 0).val / 5000, hlt⟩ (0 : Fin 2) * 5000 ≤ (i 0).val ∧ (i 0).val < win0_2.index ⟨(i 0).val / 5000, hlt⟩ (0 : Fin 2) * 5000 + 5000
      rw [e4']; omega
    | ⟨1, _⟩ =>
      show win0_2.index ⟨(i 0).val / 5000, hlt⟩ (1 : Fin 2) * 128 ≤ (i 1).val ∧ (i 1).val < win0_2.index ⟨(i 0).val / 5000, hlt⟩ (1 : Fin 2) * 128 + 128
      rw [e5]; omega

end Cert.KernelIdeal.Hand

end
-- ==== Proof.Entry.lean ====
/-
  What the kernel's program has computed on the host when its one call is entered, as functions of the arguments: the
  call's two operands (the input narrowed; the two weight matrices joined side by side, then narrowed), and the three
  arrays the operations after the call read again — the edge list's source row and target row with the self-loops
  appended, and each edge's normalisation coefficient — which are, operation for operation, the reference's own
  stages of the edge list.
-/
import proofs.«107513_j23441931501602_1_alg».proof.Proof.Gen.KernelIdeal.Frame
import proofs.«107513_j23441931501602_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]
variable (m : (ℓ : Loc nD τ sig) → Buf (Elt F) ℓ)

/-- The left operand of the call: the input array, narrowed. -/
theorem entry_x (c : Dev nD) : V m c main_v31 = truncf .bf16 (m ((c : Thread nD τ).loc main_arg0)) bitsLt_bf16_f32 := by
  dsimp only [V, V0]
  simp only [hostOps0, hostOps0_1, hostOps0_2, List.flatten_cons, List.flatten_nil, List.append_nil, List.cons_append, List.nil_append]
  after_results

/-- The right operand of the call: the two weight matrices side by side, narrowed. -/
theorem entry_w (c : Dev nD) : V m c main_v32
    = truncf .bf16 (concatenate S128x128 1 [⟨S128x64, m ((c : Thread nD τ).loc main_arg2)⟩, ⟨S128x64, m ((c : Thread nD τ).loc main_arg4)⟩] concatenates_S128x64_S128x64_S128x128_d1) bitsLt_bf16_f32 := by
  dsimp only [V, V0]
  simp only [hostOps0, hostOps0_1, hostOps0_2, List.flatten_cons, List.flatten_nil, List.append_nil, List.cons_append, List.nil_append]
  after_results_simp
  rfl

/-- The edges' sources, self-loops appended. -/
theorem entry_src (c : Dev nD) : V m c main_v3 = Cert.ReferenceIdeal.ReadP.val_main_v3 (F := F) (m ((c : Thread nD τ).loc main_arg1)) := by
  dsimp only [V, V0]
  simp only [hostOps0, hostOps0_1, hostOps0_2, List.flatten_cons, List.flatten_nil, List.append_nil, List.cons_append, List.nil_append]
  after_results
  rfl

/-- The edges' targets, self-loops appended. -/
theorem entry_dst (c : Dev nD) : V m c main_v6 = Cert.ReferenceIdeal.ReadP.val_main_v6 (F := F) (m ((c : Thread nD τ).loc main_arg1)) := by
  dsimp only [V, V0]
  simp only [hostOps0, hostOps0_1, hostOps0_2, List.flatten_cons, List.flatten_nil, List.append_nil, List.cons_append, List.nil_append]
  after_results
  rfl

set_option maxHeartbeats 4000000 in
/-- Each edge's coefficient: the product of the inverse square roots of its two ends' degrees. -/
theorem entry_norm (c : Dev nD) : V m c main_v29 = Cert.ReferenceIdeal.ReadP.val_main_v29 (F := F) (m ((c : Thread nD τ).loc main_arg1)) := by
  dsimp only [V, V0]
  simp only [hostOps0, hostOps0_1, hostOps0_2, List.flatten_cons, List.flatten_nil, List.append_nil, List.cons_append, List.nil_append]
  after_results_simp
  simp only [TRef.ofBuf, TRef.toBuf, cast_eq]
  rfl

end Cert.KernelIdeal.Hand

end
-- ==== Proof.Tail.lean ====
/-
  The operations both programs apply to the per-node feature rows `h` once they have them. With `src`, `dst` the edge
  list's two rows with the self-loops appended and `norm` the symmetric normalisation coefficient of each edge (all
  three functions of the edge list alone), the result is, row by row, the sum over the edges ending at a node of
  `norm · h[src]`, plus the bias row. The kernel's program reads `h` as a column slice of the array its one call leaves;
  the reference computes it by a product of its own. Here the chain is named once (`aggMu`, `aggLs`: the two output
  heads) and never opened: the reference's two results ARE the chain at its two products, and the kernel's host
  operations after the call compute the chain at the two column slices.
-/
import proofs.«107513_j23441931501602_1_alg».proof.Proof.Gen.KernelIdeal.Frame
import proofs.«107513_j23441931501602_1_alg».proof.Proof.RefRead
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]

/-- The first head: gather the rows of `h` at the edges' sources, scale each by its edge's coefficient, add them up
    at the edges' targets, add the bias `x3`. -/
def aggMu (h : (⟨Cert.ReferenceIdeal.S50000x64, .f32⟩ : BufTy).Contents (Elt F))
    (x1 : (⟨Cert.ReferenceIdeal.S2x800000, .i32⟩ : BufTy).Contents (Elt F))
    (x3 : (⟨Cert.ReferenceIdeal.S64, .f32⟩ : BufTy).Contents (Elt F)) :
    (⟨Cert.ReferenceIdeal.S50000x64, .f32⟩ : BufTy).Contents (Elt F) :=
  addf (Host.scatterAdd Cert.ReferenceIdeal.scatter_S50000x64_S850000x1_S850000x64_1_0_0_1 (Cert.ReferenceIdeal.ReadP.val_main_v41 (F := F)) (Cert.ReferenceIdeal.ReadP.val_main_v42 (F := F) x1)
      (mulf (Cert.ReferenceIdeal.ReadP.val_main_v39 (F := F) x1) (Host.gather Cert.ReferenceIdeal.gather_S50000x64_S850000x1_S850000x64_1_0_n_n_0_1_164 h (Cert.ReferenceIdeal.ReadP.val_main_v37 (F := F) x1))))
    (Cert.ReferenceIdeal.ReadP.val_main_v45 (F := F) x3)

/-- The second head: the same with the bias `x5`. -/
def aggLs (h : (⟨Cert.ReferenceIdeal.S50000x64, .f32⟩ : BufTy).Contents (Elt F))
    (x1 : (⟨Cert.ReferenceIdeal.S2x800000, .i32⟩ : BufTy).Contents (Elt F))
    (x5 : (⟨Cert.ReferenceIdeal.S64, .f32⟩ : BufTy).Contents (Elt F)) :
    (⟨Cert.ReferenceIdeal.S50000x64, .f32⟩ : BufTy).Contents (Elt F) :=
  addf (Host.scatterAdd Cert.ReferenceIdeal.scatter_S50000x64_S850000x1_S850000x64_1_0_0_1 (Cert.ReferenceIdeal.ReadP.val_main_v58 (F := F)) (Cert.ReferenceIdeal.ReadP.val_main_v59 (F := F) x1)
      (mulf (Cert.ReferenceIdeal.ReadP.val_main_v56 (F := F) x1) (Host.gather Cert.ReferenceIdeal.gather_S50000x64_S850000x1_S850000x64_1_0_n_n_0_1_164 h (Cert.ReferenceIdeal.ReadP.val_main_v54 (F := F) x1))))
    (Cert.ReferenceIdeal.ReadP.val_main_v62 (F := F) x5)

/-- The reference's first result is the chain at its first product. -/
theorem ref_mu (x0 : (⟨Cert.ReferenceIdeal.S50000x128, .f32⟩ : BufTy).Contents (Elt F)) (x1 : (⟨Cert.ReferenceIdeal.S2x800000, .i32⟩ : BufTy).Contents (Elt F))
    (x2 : (⟨Cert.ReferenceIdeal.S128x64, .f32⟩ : BufTy).Contents (Elt F)) (x3 : (⟨Cert.ReferenceIdeal.S64, .f32⟩ : BufTy).Contents (Elt F)) :
    Cert.ReferenceIdeal.ReadP.val_main_v46 (F := F) x0 x1 x2 x3 = aggMu (Cert.ReferenceIdeal.ReadP.val_main_v30 (F := F) x0 x2) x1 x3 := rfl

/-- The reference's second result is the chain at its second product. -/
theorem ref_ls (x0 : (⟨Cert.ReferenceIdeal.S50000x128, .f32⟩ : BufTy).Contents (Elt F)) (x1 : (⟨Cert.ReferenceIdeal.S2x800000, .i32⟩ : BufTy).Contents (Elt F))
    (x4 : (⟨Cert.ReferenceIdeal.S128x64, .f32⟩ : BufTy).Contents (Elt F)) (x5 : (⟨Cert.ReferenceIdeal.S64, .f32⟩ : BufTy).Contents (Elt F)) :
    Cert.ReferenceIdeal.ReadP.val_main_v63 (F := F) x0 x1 x4 x5 = aggLs (Cert.ReferenceIdeal.ReadP.val_main_v47 (F := F) x0 x4) x1 x5 := rfl

/-- The kernel program's operations after the call, at any buffer contents `W` whose call result is `h`, whose edge
    rows and coefficients are the reference's stages of the edge list `x1`, and whose first bias is `x3`: the first
    result buffer ends at the chain at `h`'s left 64 columns. -/
theorem tail_mu_of (W : Valuation τ sig (Elt F))
    (h : (⟨S50000x128, .f32⟩ : BufTy).Contents (Elt F)) (x1 : (⟨S2x800000, .i32⟩ : BufTy).Contents (Elt F)) (x3 : (⟨S64, .f32⟩ : BufTy).Contents (Elt F))
    (h33 : W (Proc.devRef .tc main_v33) = h)
    (h29 : W (Proc.devRef .tc main_v29) = Cert.ReferenceIdeal.ReadP.val_main_v29 (F := F) x1)
    (h3 : W (Proc.devRef .tc main_v3) = Cert.ReferenceIdeal.ReadP.val_main_v3 (F := F) x1)
    (h6 : W (Proc.devRef .tc main_v6) = Cert.ReferenceIdeal.ReadP.val_main_v6 (F := F) x1)
    (ha3 : W (Proc.devRef .tc main_arg3) = x3) :
    StableHlo.after hostOps1 W (Proc.devRef .tc main_v51)
      = aggMu (extractStridedSlice S50000x64 ![0, 0] h slices_S50000x128_S50000x64_0_0) x1 x3 := by
  after_results_simp
  rw [h33, h29, h3, h6, ha3]
  rfl

/-- The same for the second result buffer: the chain at `h`'s right 64 columns, with the second bias. -/
theorem tail_ls_of (W : Valuation τ sig (Elt F))
    (h : (⟨S50000x128, .f32⟩ : BufTy).Contents (Elt F)) (x1 : (⟨S2x800000, .i32⟩ : BufTy).Contents (Elt F)) (x5 : (⟨S64, .f32⟩ : BufTy).Contents (Elt F))
    (h33 : W (Proc.devRef .tc main_v33) = h)
    (h29 : W (Proc.devRef .tc main_v29) = Cert.ReferenceIdeal.ReadP.val_main_v29 (F := F) x1)
    (h3 : W (Proc.devRef .tc main_v3) = Cert.ReferenceIdeal.ReadP.val_main_v3 (F := F) x1)
    (h6 : W (Proc.devRef .tc main_v6) = Cert.ReferenceIdeal.ReadP.val_main_v6 (F := F) x1)
    (ha5 : W (Proc.devRef .tc main_arg5) = x5) :
    StableHlo.after hostOps1 W (Proc.devRef .tc main_v67)
      = aggLs (extractStridedSlice S50000x64 ![0, 64] h slices_S50000x128_S50000x64_0_64) x1 x5 := by
  after_results_simp
  rw [h33, h29, h3, h6, ha5]
  rfl

end Cert.KernelIdeal.Hand

end
-- ==== Proof.Bridge.lean ====
/-
  The two column slices of the kernel's product are the reference's two products. The kernel multiplies the input by
  the two weight matrices joined side by side, `[W_mu | W_logstd]`: entry (r, c) of its product is the sum over k of
  x[r, k] · [W_mu | W_logstd][k, c], and for c < 64 the joined matrix's entry is W_mu[k, c], for c = 64 + c' it is
  W_logstd[k, c']. Narrowing the operands changes nothing over the extended reals. So the left 64 columns are the sum
  the reference's first product has at (r, c), the right 64 columns its second product's: term for term, with no
  algebra at all.
-/
import proofs.«107513_j23441931501602_1_alg».proof.Proof.MatArr
import proofs.«107513_j23441931501602_1_alg».proof.Proof.RefRead
import Idealize.ShloMosaic.Lib.Pipeline.Value
import Idealize.ShloMosaic.Lib.ValueIdx

set_option maxRecDepth 16384

noncomputable section

open Idealize.ShloMosaic Idealize.ShloMosaic.TcCoe Idealize.SL.Sem

namespace Cert.KernelIdeal.Hand

open Cert.KernelIdeal Cert.KernelIdeal.Gen

/-- Entry (r, c) of the left slice sits at (r, c) of the product. -/
abbrev leftAt (i : S50000x64.Idx) : S50000x128.Idx := fun a => match a with
  | ⟨0, _⟩ => ⟨(i 0).val, (i 0).isLt⟩
  | ⟨1, _⟩ => ⟨(i 1).val, by have h : (i 1).val < 64 := (i 1).isLt; show (i 1).val < 128; omega⟩
/-- Entry (r, c) of the right slice sits at (r, 64 + c) of the product. -/
abbrev rightAt (i : S50000x64.Idx) : S50000x128.Idx := fun a => match a with
  | ⟨0, _⟩ => ⟨(i 0).val, (i 0).isLt⟩
  | ⟨1, _⟩ => ⟨64 + (i 1).val, by have h : (i 1).val < 64 := (i 1).isLt; show 64 + (i 1).val < 128; omega⟩

/-- The left 64 columns of the product with the joined matrix are the product with the first matrix. -/
theorem slice_mu (x : FVec Ideal S50000x128 .f32) (w2 w4 : FVec Ideal S128x64 .f32) :
    extractStridedSlice S50000x64 ![0, 0]
        (prodArr (truncf .bf16 x bitsLt_bf16_f32)
          (truncf .bf16 (concatenate S128x128 1 [⟨S128x64, w2⟩, ⟨S128x64, w4⟩] concatenates_S128x64_S128x64_S128x128_d1) bitsLt_bf16_f32))
        slices_S50000x128_S50000x64_0_0
      = Cert.ReferenceIdeal.ReadP.val_main_v30 (F := Ideal) x w2 := by
  funext i
  refine Eq.trans ?_ (Cert.ReferenceIdeal.ReadP.val_main_v30_apply x w2 i).symm
  refine (extractStridedSlice_apply ![0, 0] _ slices_S50000x128_S50000x64_0_0 i (leftAt i) (fun a => match a with
    | ⟨0, _⟩ => by show (i 0).val = 0 + (i 0).val; omega
    | ⟨1, _⟩ => by show (i 1).val = 0 + (i 1).val; omega)).trans ?_
  unfold prodArr
  refine Finset.sum_congr rfl fun k _ => ?_
  have hx : (truncf .bf16 x bitsLt_bf16_f32 : FVec Ideal S50000x128 .bf16) (arrRow (leftAt i) k) = x (Cert.ReferenceIdeal.ReadP.lidx_main_v30 i k) := by
    show x (arrRow (leftAt i) k) = x (Cert.ReferenceIdeal.ReadP.lidx_main_v30 i k)
    refine congrArg x (funext fun a => Fin.ext ?_)
    match a with
    | ⟨0, _⟩ => rfl
    | ⟨1, _⟩ => rfl
  have hw : (truncf .bf16 (concatenate S128x128 1 [⟨S128x64, w2⟩, ⟨S128x64, w4⟩] concatenates_S128x64_S128x64_S128x128_d1) bitsLt_bf16_f32 : FVec Ideal S128x128 .bf16) (arrCol (leftAt i) k)
      = w2 (Cert.ReferenceIdeal.ReadP.ridx_main_v30 i k) := by
    show concatenate S128x128 1 [⟨S128x64, w2⟩, ⟨S128x64, w4⟩] concatenates_S128x64_S128x64_S128x128_d1 (arrCol (leftAt i) k) = _
    exact concatenate_pair_apply_left (1 : Fin S128x128.rank) w2 w4 concatenates_S128x64_S128x64_S128x128_d1 (arrCol (leftAt i) k) rfl (Cert.ReferenceIdeal.ReadP.ridx_main_v30 i k)
      (fun b => match b with
        | ⟨0, _⟩ => rfl
        | ⟨1, _⟩ => rfl)
  rw [hx, hw]

/-- The right 64 columns are the product with the second matrix. -/
theorem slice_ls (x : FVec Ideal S50000x128 .f32) (w2 w4 : FVec Ideal S128x64 .f32) :
    extractStridedSlice S50000x64 ![0, 64]
        (prodArr (truncf .bf16 x bitsLt_bf16_f32)
          (truncf .bf16 (concatenate S128x128 1 [⟨S128x64, w2⟩, ⟨S128x64, w4⟩] concatenates_S128x64_S128x64_S128x128_d1) bitsLt_bf16_f32))
        slices_S50000x128_S50000x64_0_64
      = Cert.ReferenceIdeal.ReadP.val_main_v47 (F := Ideal) x w4 := by
  funext i
  refine Eq.trans ?_ (Cert.ReferenceIdeal.ReadP.val_main_v47_apply x w4 i).symm
  refine (extractStridedSlice_apply ![0, 64] _ slices_S50000x128_S50000x64_0_64 i (rightAt i) (fun a => match a with
    | ⟨0, _⟩ => by show (i 0).val = 0 + (i 0).val; omega
    | ⟨1, _⟩ => by show 64 + (i 1).val = 64 + (i 1).val; rfl)).trans ?_
  unfold prodArr
  refine Finset.sum_congr rfl fun k _ => ?_
  have hx : (truncf .bf16 x bitsLt_bf16_f32 : FVec Ideal S50000x128 .bf16) (arrRow (rightAt i) k) = x (Cert.ReferenceIdeal.ReadP.lidx_main_v47 i k) := by
    show x (arrRow (rightAt i) k) = x (Cert.ReferenceIdeal.ReadP.lidx_main_v47 i k)
    refine congrArg x (funext fun a => Fin.ext ?_)
    match a with
    | ⟨0, _⟩ => rfl
    | ⟨1, _⟩ => rfl
  have hw : (truncf .bf16 (concatenate S128x128 1 [⟨S128x64, w2⟩, ⟨S128x64, w4⟩] concatenates_S128x64_S128x64_S128x128_d1) bitsLt_bf16_f32 : FVec Ideal S128x128 .bf16) (arrCol (rightAt i) k)
      = w4 (Cert.ReferenceIdeal.ReadP.ridx_main_v47 i k) := by
    show concatenate S128x128 1 [⟨S128x64, w2⟩, ⟨S128x64, w4⟩] concatenates_S128x64_S128x64_S128x128_d1 (arrCol (rightAt i) k) = _
    refine concatenate_pair_apply_right (1 : Fin S128x128.rank) w2 w4 concatenates_S128x64_S128x64_S128x128_d1 (arrCol (rightAt i) k) rfl rfl (Cert.ReferenceIdeal.ReadP.ridx_main_v47 i k)
      (fun b hb => ?_) ?_
    · match b, hb with
      | ⟨0, _⟩, _ => rfl
      | ⟨1, _⟩, hb => exact absurd rfl hb
    · show (i 1).val + 64 = 64 + (i 1).val
      omega
  rw [hx, hw]

end Cert.KernelIdeal.Hand

end
-- ==== Proof.Out.lean ====
/-
  The kernel's program, run: its two result buffers as functions of the arguments. The array its one call leaves is
  the product of the narrowed input with the narrowed joined weights (MatArr, with the operands read off the host
  operations before the call: Entry); the host operations after the call slice it into its two column halves and apply
  the shared chain to each (Tail); the halves are the reference's two products (Bridge). So each result buffer ends
  at the reference's stage for that result, evaluated at the kernel program's own arguments.
-/
import proofs.«107513_j23441931501602_1_alg».proof.Proof.MatArr
import proofs.«107513_j23441931501602_1_alg».proof.Proof.Entry
import proofs.«107513_j23441931501602_1_alg».proof.Proof.Tail
import proofs.«107513_j23441931501602_1_alg».proof.Proof.Bridge

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ) (ρ : Dev nD → PrngReg)

/-- The first result as a function of the arguments: the reference's stage for its first result. -/
abbrev resMu (c : Dev nD) : (⟨Cert.ReferenceIdeal.S50000x64, .f32⟩ : BufTy).Contents (Elt Ideal) :=
  Cert.ReferenceIdeal.ReadP.val_main_v46 (F := Ideal) (m ((c.tc : Thread nD τ).loc main_arg0)) (m ((c.tc : Thread nD τ).loc main_arg1))
    (m ((c.tc : Thread nD τ).loc main_arg2)) (m ((c.tc : Thread nD τ).loc main_arg3))
/-- The second result likewise. -/
abbrev resLs (c : Dev nD) : (⟨Cert.ReferenceIdeal.S50000x64, .f32⟩ : BufTy).Contents (Elt Ideal) :=
  Cert.ReferenceIdeal.ReadP.val_main_v63 (F := Ideal) (m ((c.tc : Thread nD τ).loc main_arg0)) (m ((c.tc : Thread nD τ).loc main_arg1))
    (m ((c.tc : Thread nD τ).loc main_arg4)) (m ((c.tc : Thread nD τ).loc main_arg5))

/-- The array the call leaves: the product of the narrowed input with the narrowed joined weights. -/
theorem call_result (c : Dev nD) : (dats m 0 c).arrAt 2 cfg0.N
    = prodArr (truncf (F := Ideal) .bf16 (m ((c.tc : Thread nD τ).loc main_arg0)) bitsLt_bf16_f32)
        (truncf (F := Ideal) .bf16 (concatenate S128x128 1 [⟨S128x64, m ((c.tc : Thread nD τ).loc main_arg2)⟩, ⟨S128x64, m ((c.tc : Thread nD τ).loc main_arg4)⟩] concatenates_S128x64_S128x64_S128x128_d1) bitsLt_bf16_f32) :=
  (final m c).trans (congrArg₂ prodArr (entry_x m c) (entry_w m c))

/-- The first result buffer after the operations that follow the call. -/
theorem out_mu (c : Dev nD) : Pipeline.afterTail₀ cfgs (dats m) 0 (V0 m) [hostOps1] c main_v51 = resMu m c := by
  unfold Pipeline.afterTail₀
  show StableHlo.after hostOps1 _ (Proc.devRef .tc main_v51) = _
  refine (tail_mu_of _ _ (m ((c.tc : Thread nD τ).loc main_arg1)) (m ((c.tc : Thread nD τ).loc main_arg3))
    ((Pipeline.withArrays_arr _ launch0.win.arr_inj c _ _ 2).trans (call_result m c))
    ((Pipeline.withArrays_of_ne _ c (V0 m c) _ main_v29 (by exact (by decide : ∀ w, Pipeline.arrRef spec0 w ≠ main_v29))).trans (entry_norm m c))
    ((Pipeline.withArrays_of_ne _ c (V0 m c) _ main_v3 (by exact (by decide : ∀ w, Pipeline.arrRef spec0 w ≠ main_v3))).trans (entry_src m c))
    ((Pipeline.withArrays_of_ne _ c (V0 m c) _ main_v6 (by exact (by decide : ∀ w, Pipeline.arrRef spec0 w ≠ main_v6))).trans (entry_dst m c))
    ((Pipeline.withArrays_of_ne _ c (V0 m c) _ main_arg3 (by exact (by decide : ∀ w, Pipeline.arrRef spec0 w ≠ main_arg3))).trans (V_main_arg3 m c))).trans ?_
  rw [slice_mu]
  exact (ref_mu _ _ _ _).symm

/-- The second result buffer after the operations that follow the call. -/
theorem out_ls (c : Dev nD) : Pipeline.afterTail₀ cfgs (dats m) 0 (V0 m) [hostOps1] c main_v67 = resLs m c := by
  unfold Pipeline.afterTail₀
  show StableHlo.after hostOps1 _ (Proc.devRef .tc main_v67) = _
  refine (tail_ls_of _ _ (m ((c.tc : Thread nD τ).loc main_arg1)) (m ((c.tc : Thread nD τ).loc main_arg5))
    ((Pipeline.withArrays_arr _ launch0.win.arr_inj c _ _ 2).trans (call_result m c))
    ((Pipeline.withArrays_of_ne _ c (V0 m c) _ main_v29 (by exact (by decide : ∀ w, Pipeline.arrRef spec0 w ≠ main_v29))).trans (entry_norm m c))
    ((Pipeline.withArrays_of_ne _ c (V0 m c) _ main_v3 (by exact (by decide : ∀ w, Pipeline.arrRef spec0 w ≠ main_v3))).trans (entry_src m c))
    ((Pipeline.withArrays_of_ne _ c (V0 m c) _ main_v6 (by exact (by decide : ∀ w, Pipeline.arrRef spec0 w ≠ main_v6))).trans (entry_dst m c))
    ((Pipeline.withArrays_of_ne _ c (V0 m c) _ main_arg5 (by exact (by decide : ∀ w, Pipeline.arrRef spec0 w ≠ main_arg5))).trans (V_main_arg5 m c))).trans ?_
  rw [slice_ls]
  exact (ref_ls _ _ _ _).symm

/-- Every weakly fair execution of the kernel's program ends with the two results at the reference's stages of its
    own arguments, and the arguments unchanged. -/
theorem kernel_run : θ_run defs (onTc (τ := τ) (main (F := Ideal))) ⟨m, fun _ => 0, ρ⟩ fun r => ∀ c : Dev nD,
      r.2.mem ((c.tc : Thread nD τ).loc main_v51) = resMu m c
      ∧ r.2.mem ((c.tc : Thread nD τ).loc main_v67) = resLs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v51 (Pipeline.mem_restRefs_of main_v51 (by decide) (by decide))).trans (out_mu m c),
      ((h c).2 main_v67 (Pipeline.mem_restRefs_of main_v67 (by decide) (by decide))).trans (out_ls m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.KernelIdeal.Hand

end
-- ==== Proof.lean ====
/-
  A two-head graph-convolution encoder. Both programs append a self-loop to every node, count each node's incoming
  edges, take the inverse square root of the counts, and give each edge the product of the two numbers at its ends;
  both then, for each head, multiply the node features by that head's weight matrix, gather the product's rows at the
  edges' sources, scale them by the edges' coefficients, add them up at the edges' targets and add the head's bias.
  They differ in one place only: the reference multiplies the features by each weight matrix separately, while the
  kernel joins the two matrices side by side, narrows both operands, multiplies once in a tiled call (ten blocks of
  5000 rows), and takes the two column halves of the product. Over the extended reals narrowing is the identity and
  entry (r, c) of the joint product is the same sum of 128 products as entry (r, c) of the first separate product
  (c < 64) or entry (r, c - 64) of the second: the halves are the separate products, term for term, so no
  algebraic law and no finiteness of the inputs is used. Everything after the products is one chain of operations,
  carried as a named function and never opened.

  The frames of the two kernel programs are the generated ones; the reference's is its run with the results dropped.
  The ledger of rewrites is empty, so the idealisation claim is trivial.
-/
import proofs.«107513_j23441931501602_1_alg».proof.Defs
import proofs.«107513_j23441931501602_1_alg».proof.Proof.Gen.Kernel
import proofs.«107513_j23441931501602_1_alg».proof.Proof.Gen.Kernel.Skeleton
import proofs.«107513_j23441931501602_1_alg».proof.Proof.Gen.Kernel.Launch
import proofs.«107513_j23441931501602_1_alg».proof.Proof.Gen.Kernel.Points
import proofs.«107513_j23441931501602_1_alg».proof.Proof.Gen.Kernel.Frame
import proofs.«107513_j23441931501602_1_alg».proof.Proof.Gen.KernelIdeal
import proofs.«107513_j23441931501602_1_alg».proof.Proof.Gen.KernelIdeal.Skeleton
import proofs.«107513_j23441931501602_1_alg».proof.Proof.Gen.KernelIdeal.Launch
import proofs.«107513_j23441931501602_1_alg».proof.Proof.Gen.KernelIdeal.Points
import proofs.«107513_j23441931501602_1_alg».proof.Proof.Gen.KernelIdeal.Frame
import proofs.«107513_j23441931501602_1_alg».proof.Proof.Gen.ReferenceIdeal
import proofs.«107513_j23441931501602_1_alg».proof.Proof.Gen.Pre_finite_inputs
import proofs.«107513_j23441931501602_1_alg».proof.Proof.RefRun
import proofs.«107513_j23441931501602_1_alg».proof.Proof.RefRead
import proofs.«107513_j23441931501602_1_alg».proof.Proof.Out
import Idealize.ShloMosaic.Adequacy
import Idealize.ShloMosaic.Init

noncomputable section

namespace Cert.Proof

open Idealize.ShloMosaic Idealize.SL.Sem

/-- The reference terminates, faults nowhere and keeps its arguments: its run, with the two results dropped. -/
theorem frame_ref : Cert.frame_ReferenceIdeal := fun m ρ _ =>
  (θ_run Cert.ReferenceIdeal.defs _ _).mono (fun _ h c => (h c).2.2) (Cert.ReferenceIdeal.ValueP.run (F := Ideal) m ρ)

/-- From memories that agree on the six arguments both programs end with the same two results: the kernel's program
    at the reference's stages of its arguments, the reference at its own stages of arguments that are the same. -/
theorem algebraic : Cert.algebraic_KernelIdeal_ReferenceIdeal := by
  intro m ρ m' ρ' _ hagree
  refine ⟨fun c => Cert.KernelIdeal.Hand.resMu m c, fun c => Cert.KernelIdeal.Hand.resLs m c, Cert.KernelIdeal.Hand.kernel_run m ρ, ?_⟩
  refine (θ_run Cert.ReferenceIdeal.defs _ _).mono (fun _ h c => ?_) (Cert.ReferenceIdeal.ValueP.run (F := Ideal) m' ρ')
  obtain ⟨a0, a1, a2, a3, a4, a5⟩ := hagree c
  refine ⟨(h c).1.trans ?_, (h c).2.1.trans ?_, (h c).2.2⟩
  · rw [Cert.ReferenceIdeal.ReadP.val_main_v46_eq, a0, a1, a2, a3]
  · rw [Cert.ReferenceIdeal.ReadP.val_main_v63_eq, a0, a1, a4, a5]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
